-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x8192 : Shape := ⟨3, ![4096, 2, 8192]⟩
abbrev S2048x8192 : Shape := ⟨2, ![2048, 8192]⟩
abbrev S2048 : Shape := ⟨1, ![2048]⟩
abbrev S_ : Shape := ⟨0, ![]⟩

class Facts : Prop where
  bcast_S_S4096x2x8192 : S_.BroadcastsInDim S4096x2x8192 (![] : Fin 0 → Fin S4096x2x8192.rank)
  reducesTo_S4096x2x8192_S_d0_1_2 : S4096x2x8192.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2x8192 .f32) (main_arg1 : FVec F S2048x8192 .f32) (main_arg2 : FVec F S2048 .f32) : IVec S_ 1 :=
  let main_v0 : FVec F S4096x2x8192 .f32 := Host.absf main_arg0
  let main_cst : FVec F S_ .f32 := constant S_ .f32 0x7F800000#32
  let main_v1 : FVec F S4096x2x8192 .f32 := broadcastInDim S4096x2x8192 ![] bcast_S_S4096x2x8192 main_cst
  let main_v2 : IVec S4096x2x8192 1 := cmpf .olt main_v0 main_v1
  let main_c : IVec S_ 1 := constantI S_ 1 1#1
  let main_v3 : IVec S_ 1 := (fun x v => Host.reduce IntOp.andi x v reducesTo_S4096x2x8192_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2x8192 : Shape := ⟨3, ![4096, 2, 8192]⟩
abbrev S2048x8192 : Shape := ⟨2, ![2048, 8192]⟩
abbrev S2048 : Shape := ⟨1, ![2048]⟩
abbrev S8192x8192 : Shape := ⟨2, ![8192, 8192]⟩
abbrev S1x2048 : Shape := ⟨2, ![1, 2048]⟩
abbrev S8192x2048 : Shape := ⟨2, ![8192, 2048]⟩
abbrev S512x1024 : Shape := ⟨2, ![512, 1024]⟩
abbrev S2048x1024 : Shape := ⟨2, ![2048, 1024]⟩
abbrev S512x2048 : Shape := ⟨2, ![512, 2048]⟩
abbrev S4096x2x2048 : Shape := ⟨3, ![4096, 2, 2048]⟩

abbrev nBuf : Space → Nat
  | .hbm => 7
  | .vmem => 8
  | .smem => 0
  | _ => 0

abbrev bufTy : (tb : Table) → Fin (tcTables nBuf tb) → BufTy
  | .hbm, ⟨0, _⟩ => ⟨S4096x2x8192, .f32⟩
  | .hbm, ⟨1, _⟩ => ⟨S2048x8192, .f32⟩
  | .hbm, ⟨2, _⟩ => ⟨S2048, .f32⟩
  | .hbm, ⟨3, _⟩ => ⟨S8192x8192, .f32⟩
  | .hbm, ⟨4, _⟩ => ⟨S1x2048, .f32⟩
  | .hbm, ⟨5, _⟩ => ⟨S8192x2048, .f32⟩
  | .hbm, ⟨6, _⟩ => ⟨S4096x2x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S4096x2x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096x2x8192_S8192x8192 : S4096x2x8192.ShapeCasts S8192x8192
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4096x2x2048 : S8192x2048.ShapeCasts S4096x2x2048
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x8192.size a
  hwx0_0 : ∀ i : grid0.Coords, EltTy.bits .f32 = 32 ∨ (Rect.block (s := S8192x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x8192.size a
  hwx0_1 : ∀ i : grid0.Coords, EltTy.bits .f32 = 32 ∨ (Rect.block (s := S2048x8192) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x2x8192 : Shape := ⟨3, ![4096, 2, 8192]⟩
abbrev S2048x8192 : Shape := ⟨2, ![2048, 8192]⟩
abbrev S2048 : Shape := ⟨1, ![2048]⟩
abbrev S4096x2x2048 : Shape := ⟨3, ![4096, 2, 2048]⟩
abbrev S1x1x2048 : Shape := ⟨3, ![1, 1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2x8192, .f32⟩
  | .hbm, ⟨1, _⟩ => ⟨S2048x8192, .f32⟩
  | .hbm, ⟨2, _⟩ => ⟨S2048, .f32⟩
  | .hbm, ⟨3, _⟩ => ⟨S4096x2x2048, .f32⟩
  | .hbm, ⟨4, _⟩ => ⟨S1x1x2048, .f32⟩
  | .hbm, ⟨5, _⟩ => ⟨S4096x2x2048, .f32⟩
  | .hbm, ⟨6, _⟩ => ⟨S4096x2x2048, .f32⟩
  | _, _ => ⟨S4096x2x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4096x2x2048_0_1_2 : S1x1x2048.BroadcastsInDim S4096x2x2048 (![0, 1, 2] : Fin 3 → Fin S4096x2x2048.rank)
  dot_S4096x2x8192_S2048x8192_S4096x2x2048_2_1_01_0_n_n_wf : DotDims.WF S4096x2x8192 S2048x8192 S4096x2x2048 [2] [1] [0, 1] [0] [] []

variable [Facts₀]

def dot_S4096x2x8192_S2048x8192_S4096x2x2048_2_1_01_0_n_n : DotDims S4096x2x8192 S2048x8192 S4096x2x2048 where
  lhsContracting := [2]
  rhsContracting := [1]
  lhsNonContracting := [0, 1]
  rhsNonContracting := [0]
  lhsBatch := []
  rhsBatch := []
  wf := dot_S4096x2x8192_S2048x8192_S4096x2x2048_2_1_01_0_n_n_wf

class Facts : Prop extends Facts₀ where

variable [Facts]
-- ==== Proof.Pieces.lean ====
/-
  What one run of the kernel body leaves behind, in each of its three control cases, as values.

  The running total lives in a buffer of the kernel's own that is carried from one grid step to the next. At the first
  step of a row tile the body overwrites it with zeros, reads the zeros back, and stores zeros-plus-this-step's
  product: so the total afterwards is the step applied to the zero block, whatever the buffer held before. At every
  other step the body stores the step applied to what the previous step left. At the last step of a row tile it also
  reads the new total back and stores it, plus the bias row, into the result block. Every store covers its whole
  buffer, so what a buffer holds afterwards is the last value stored into it.
-/
import proofs.«106712_j44856638439903_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First step of a row tile: the total is the step applied to the zero block. -/
theorem total_first (c : Dev nD) (i : grid0.Coords) (a2 : Memref sig .tc .vmem S512x1024 .f32) (h2 : a2.IsWhole) (a3 : Memref sig .tc .vmem S2048x1024 .f32) (h3 : a3.IsWhole) (a4 : Memref sig .tc .vmem S1x2048 .f32) (h4 : a4.IsWhole) (a5 : Memref sig .tc .vmem S512x2048 .f32) (h5 : a5.IsWhole) (a6 : Memref sig .tc .vmem S512x2048 .f32) (h6 : a6.IsWhole) (hc0 : cond0_0 i) (hc1 : ¬cond0_1 i)
    (x0 : Vec F S512x1024 .f32) (x1 : Vec F S2048x1024 .f32) (x2 : Vec F S1x2048 .f32) :
    sout0_A_0 c i a2 h2 a3 h3 a4 h4 a5 h5 a6 h6 hc0 hc1 x0 x1 x2 = k0_pay2 x0 x1 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x2048) hz]
  simp only [View.readAt_eq_ld, h2.read_unread, h3.read_unread, View.ld_unit_zero (S := S512x1024) hz, View.ld_unit_zero (S := S2048x1024) hz, View.ld_unit_zero (S := S512x2048) hz, View.ld_unit_zero (S := S1x2048) hz, View.readCov_unit_zero (S := S512x2048) _ hz]

/-- A middle step: the total is the step applied to the previous total. -/
theorem total_middle (c : Dev nD) (i : grid0.Coords) (a2 : Memref sig .tc .vmem S512x1024 .f32) (h2 : a2.IsWhole) (a3 : Memref sig .tc .vmem S2048x1024 .f32) (h3 : a3.IsWhole) (a4 : Memref sig .tc .vmem S1x2048 .f32) (h4 : a4.IsWhole) (a5 : Memref sig .tc .vmem S512x2048 .f32) (h5 : a5.IsWhole) (a6 : Memref sig .tc .vmem S512x2048 .f32) (h6 : a6.IsWhole) (hc0 : ¬cond0_0 i) (hc1 : ¬cond0_1 i)
    (x0 : Vec F S512x1024 .f32) (x1 : Vec F S2048x1024 .f32) (x2 : Vec F S1x2048 .f32) (xs : Vec F S512x2048 .f32) :
    sout0_B_0 c i a2 h2 a3 h3 a4 h4 a5 h5 a6 h6 hc0 hc1 x0 x1 x2 xs = k0_pay2 x0 x1 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero hz]
  simp only [View.readAt_eq_ld, h2.read_unread, h3.read_unread, h6.read_unread, View.ld_unit_zero (S := S512x1024) hz, View.ld_unit_zero (S := S2048x1024) hz, View.ld_unit_zero (S := S512x2048) hz, View.ld_unit_zero (S := S1x2048) hz]

/-- The last step of a row tile: the total is again the step applied to the previous total, -/
theorem total_last (c : Dev nD) (i : grid0.Coords) (a2 : Memref sig .tc .vmem S512x1024 .f32) (h2 : a2.IsWhole) (a3 : Memref sig .tc .vmem S2048x1024 .f32) (h3 : a3.IsWhole) (a4 : Memref sig .tc .vmem S1x2048 .f32) (h4 : a4.IsWhole) (a5 : Memref sig .tc .vmem S512x2048 .f32) (h5 : a5.IsWhole) (a6 : Memref sig .tc .vmem S512x2048 .f32) (h6 : a6.IsWhole) (hc0 : ¬cond0_0 i) (hc1 : cond0_1 i)
    (x0 : Vec F S512x1024 .f32) (x1 : Vec F S2048x1024 .f32) (x2 : Vec F S1x2048 .f32) (xs : Vec F S512x2048 .f32) :
    sout0_C_0 c i a2 h2 a3 h3 a4 h4 a5 h5 a6 h6 hc0 hc1 x0 x1 x2 xs = k0_pay2 x0 x1 xs := by
  unfold sout0_C_0
  rw [View.read_writes_eq_canon _ _ _ (scover0_C_0 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h6.read_unread, View.ld_unit_zero (S := S512x1024) hz, View.ld_unit_zero (S := S2048x1024) hz, View.ld_unit_zero (S := S512x2048) hz, View.ld_unit_zero (S := S1x2048) hz]

/-- and the result block is that new total plus the bias row. -/
theorem result_last (c : Dev nD) (i : grid0.Coords) (a2 : Memref sig .tc .vmem S512x1024 .f32) (h2 : a2.IsWhole) (a3 : Memref sig .tc .vmem S2048x1024 .f32) (h3 : a3.IsWhole) (a4 : Memref sig .tc .vmem S1x2048 .f32) (h4 : a4.IsWhole) (a5 : Memref sig .tc .vmem S512x2048 .f32) (h5 : a5.IsWhole) (a6 : Memref sig .tc .vmem S512x2048 .f32) (h6 : a6.IsWhole) (hc0 : ¬cond0_0 i) (hc1 : cond0_1 i)
    (x0 : Vec F S512x1024 .f32) (x1 : Vec F S2048x1024 .f32) (x2 : Vec F S1x2048 .f32) (xs : Vec F S512x2048 .f32) :
    out0_C_3 c i a2 h2 a3 h3 a4 h4 a5 h5 a6 h6 hc0 hc1 x0 x1 x2 xs = k0_pay3 (k0_pay2 x0 x1 xs) x2 := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h4.read_unread, h6.read_unread, View.ld_unit_zero (S := S512x1024) hz, View.ld_unit_zero (S := S2048x1024) hz, View.ld_unit_zero (S := S512x2048) hz, View.ld_unit_zero (S := S1x2048) hz, View.readCov_unit_zero (S := S512x2048) _ hz]

end Cert.KernelIdeal.Pieces

end
-- ==== Proof.Payload.lean ====
/-
  The three values the kernel body stores, read at one entry over the extended reals.

  The body keeps a [512, 2048] running total. At the first step of a row tile it stores zeros into it; at every step
  it adds to it the product of the step's [512, 1024] block of rows with the step's [2048, 1024] block of weights,
  contracted over the 1024 shared columns; at the last step it stores the total plus the bias row, broadcast down the
  512 rows, as the tile's result. The narrowing of both blocks before the product is the identity over the reals, and
  the product into a zero accumulator is the plain sum of the 1024 products.
-/
import proofs.«106712_j44856638439903_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The contraction's operand indices: rows stay, the shared column is the contraction index -/

theorem lhs_row (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem lhs_col (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem rhs_row (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem rhs_col (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-! ## The stored values -/

/-- The reset stores zero everywhere. -/
theorem reset_apply (j : S512x2048.Idx) : k0_pay1 (F := Ideal) j = 0 := by
  unfold k0_pay1
  simp only [shapeCast_self]
  show Ideal.ofBits .f32 0x00000000#32 = 0
  exact Ideal.ofBits_zero_f32

/-- One step: the total so far plus the 1024 products of row `r` of the rows block with row `n` of the weights block. -/
theorem step_apply (a : Vec Ideal S512x1024 .f32) (w : Vec Ideal S2048x1024 .f32) (acc : Vec Ideal S512x2048 .f32)
    (r : Fin 512) (n : Fin 2048) :
    k0_pay2 (F := Ideal) a w acc (ix2 r n) = acc (ix2 r n) + ∑ kk : Fin 1024, a (ix2 r kk) * w (ix2 n kk) := by
  unfold k0_pay2
  simp only [shapeCast_self]
  rw [addf_apply]
  refine congrArg (acc (ix2 r n) + ·) ?_
  simp only [matmul]
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 r n) ((contrEquiv1 dot_S512x1024_S2048x1024_S512x2048_1_1_0_0_n_n 1024 rfl rfl).symm k) = ix2 r k := funext fun a => Fin.ext (by
    match a with
    | ⟨0, _⟩ => exact lhs_row _ _
    | ⟨1, _⟩ => exact (lhs_col _ _).trans hk)
  have er : dot_S512x1024_S2048x1024_S512x2048_1_1_0_0_n_n.rhsIdx (ix2 r n) ((contrEquiv1 dot_S512x1024_S2048x1024_S512x2048_1_1_0_0_n_n 1024 rfl rfl).symm k) = ix2 n k := funext fun a => Fin.ext (by
    match a with
    | ⟨0, _⟩ => exact rhs_row _ _
    | ⟨1, _⟩ => exact (rhs_col _ _).trans hk)
  rw [el, er]
  rfl

/-- The last step's result: the total plus the bias row's entry `n`, whatever the row. -/
theorem result_apply (acc : Vec Ideal S512x2048 .f32) (b : Vec Ideal S1x2048 .f32) (r : Fin 512) (n : Fin 2048) :
    k0_pay3 (F := Ideal) acc b (ix2 r n) = acc (ix2 r n) + b (ix2 (0 : Fin 1) n) := by
  unfold k0_pay3
  simp only [shapeCast_self]
  rw [addf_apply]
  refine congrArg (acc (ix2 r n) + ·) ?_
  exact broadcastTo_apply b broadcasts_S1x2048_S512x2048 (ix2 r n) (ix2 (0 : Fin 1) n) (fun a => match a with
    | ⟨0, _⟩ => by show 0 = if (1 : Nat) = 1 then 0 else r.val; rw [if_pos rfl]
    | ⟨1, _⟩ => by show n.val = if (2048 : Nat) = 1 then 0 else n.val; rw [if_neg (by decide)])

end Cert.KernelIdeal.Payload

end
-- ==== Proof.Blocks.lean ====
/-
  Which entries of its array each window's block holds at a grid step.

  The grid is 16 row tiles by 8 steps, walked row tile by row tile: step `t` (0 ≤ t < 128) is row tile `t / 8`,
  contraction step `t % 8`. At step `t`
    the rows block    (r, kk) is entry (512·(t / 8) + r, 1024·(t % 8) + kk) of the [8192, 8192] rows array,
    the weights block (n, kk) is entry (n, 1024·(t % 8) + kk) of the [2048, 8192] weights array,
    the bias block is the whole [1, 2048] bias row,
  and the result block, where it is written back, is rows 512·(t / 8) … 512·(t / 8) + 511 of the [8192, 2048] result.
  A block's coordinate along an axis is always (block index) · (block size) + (coordinate inside the block); the block
  indices are decided once over the 128 steps.
-/
import proofs.«106712_j44856638439903_1_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## The blocks and the arrays, at their literal types -/

abbrev rowsBlk (c : Dev nD) (t : Fin cfg0.N) : Vec F S512x1024 .f32 := iblk m c 0 t
abbrev wtsBlk (c : Dev nD) (t : Fin cfg0.N) : Vec F S2048x1024 .f32 := iblk m c 1 t
abbrev biasBlk (c : Dev nD) (t : Fin cfg0.N) : Vec F S1x2048 .f32 := iblk m c 2 t
abbrev rowsArr (c : Dev nD) : Vec F S8192x8192 .f32 := V m c main_v0
abbrev wtsArr (c : Dev nD) : Vec F S2048x8192 .f32 := V m c main_arg1
abbrev biasArr (c : Dev nD) : Vec F S1x2048 .f32 := V m c main_v1

/-! ## The block indices, over the grid -/

theorem idx_rows : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx_wts : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
theorem idx_bias : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_out : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-! ## The blocks read as entries of their arrays -/

theorem rowsBlk_apply (c : Dev nD) (t : Fin cfg0.N) (r : Fin 512) (kk : Fin 1024) (R K : Fin 8192)
    (hR : R.val = t.val / 8 * 512 + r.val) (hK : K.val = t.val % 8 * 1024 + kk.val) :
    rowsBlk m c t (ix2 r kk) = rowsArr m c (ix2 R K) := by
  show ((cfg0.win 0).blk t).view.read (Elt F) (V m c main_v0) (ix2 r kk) = V m c main_v0 (ix2 R K)
  rw [View.read_apply]
  refine congrArg (V m c main_v0) (funext fun a => Fin.ext ?_)
  match a with
  | ⟨0, _⟩ => show win0_0.index t 0 * 512 + 1 * r.val = R.val; rw [(idx_rows t).1, hR]; omega
  | ⟨1, _⟩ => show win0_0.index t 1 * 1024 + 1 * kk.val = K.val; rw [(idx_rows t).2, hK]; omega

theorem wtsBlk_apply (c : Dev nD) (t : Fin cfg0.N) (n : Fin 2048) (kk : Fin 1024) (K : Fin 8192)
    (hK : K.val = t.val % 8 * 1024 + kk.val) :
    wtsBlk m c t (ix2 n kk) = wtsArr m c (ix2 n K) := by
  show ((cfg0.win 1).blk t).view.read (Elt F) (V m c main_arg1) (ix2 n kk) = V m c main_arg1 (ix2 n K)
  rw [View.read_apply]
  refine congrArg (V m c main_arg1) (funext fun a => Fin.ext ?_)
  match a with
  | ⟨0, _⟩ => show win0_1.index t 0 * 2048 + 1 * n.val = n.val; rw [(idx_wts t).1]; omega
  | ⟨1, _⟩ => show win0_1.index t 1 * 1024 + 1 * kk.val = K.val; rw [(idx_wts t).2, hK]; omega

theorem biasBlk_apply (c : Dev nD) (t : Fin cfg0.N) (n : Fin 2048) :
    biasBlk m c t (ix2 (0 : Fin 1) n) = biasArr m c (ix2 (0 : Fin 1) n) := by
  show ((cfg0.win 2).blk t).view.read (Elt F) (V m c main_v1) (ix2 (0 : Fin 1) n) = V m c main_v1 (ix2 (0 : Fin 1) n)
  rw [View.read_apply]
  refine congrArg (V m c main_v1) (funext fun a => Fin.ext ?_)
  match a with
  | ⟨0, _⟩ => show win0_2.index t 0 * 1 + 1 * 0 = 0; rw [(idx_bias t).1]
  | ⟨1, _⟩ => show win0_2.index t 1 * 2048 + 1 * n.val = n.val; rw [(idx_bias t).2]; omega

end Cert.KernelIdeal.Blocks

end
-- ==== Proof.BlockSum.lean ====
/-
  A sum of the first J·B terms of a sequence, taken B at a time. This is the one rearrangement that joins a
  contraction carried out in J consecutive runs of B terms each (a running total that starts at zero and takes one
  run's partial sum per step) with the same contraction carried out at once. It holds in any commutative additive
  monoid, so over the extended reals it asks nothing of the terms: only the grouping of the additions changes.
-/
import Idealize.ShloMosaic.Lib.ValueIdx

open scoped BigOperators

namespace Cert.BlockSum

/-- The first `J * B` terms, summed run by run: run `s` holds the terms `s * B, …, s * B + B - 1`. -/
theorem sum_range_runs {M : Type*} [AddCommMonoid M] (g : ℕ → M) (B : ℕ) :
    ∀ J : ℕ, ∑ i ∈ Finset.range (J * B), g i = ∑ s ∈ Finset.range J, ∑ i ∈ Finset.range B, g (s * B + i)
  | 0 => by simp
  | J + 1 => by
    rw [Nat.succ_mul, Finset.sum_range_add, sum_range_runs g B J, Finset.sum_range_succ]

/-- The same with the whole sum, and the sum inside each run, indexed by `Fin`. -/
theorem sum_fin_runs {M : Type*} [AddCommMonoid M] (g : ℕ → M) (J B : ℕ) :
    ∑ k : Fin (J * B), g k.val = ∑ s ∈ Finset.range J, ∑ i : Fin B, g (s * B + i.val) := by
  rw [← Finset.sum_range (fun i => g i), sum_range_runs]
  exact Finset.sum_congr rfl fun s _ => Finset.sum_range (fun i => g (s * B + i))

/-- 8192 terms as 8 runs of 1024. -/
theorem sum_8192 {M : Type*} [AddCommMonoid M] (g : ℕ → M) :
    ∑ k : Fin 8192, g k.val = ∑ s ∈ Finset.range 8, ∑ i : Fin 1024, g (s * 1024 + i.val) :=
  sum_fin_runs g 8 1024

end Cert.BlockSum
-- ==== Proof.Accum.lean ====
/-
  The running total, step by step, and the result block at a row tile's last step.

  Write term(a, n, k) for the product of entry (a, k) of the rows array with entry (n, k) of the weights array. At
  grid step t — row tile t / 8, contraction step t % 8 — the body adds to entry (r, n) of the running total the 1024
  products term(512·(t / 8) + r, n, k) for k in run t % 8 of the columns, that is k = 1024·(t % 8) … 1024·(t % 8) + 1023.
  The total is reset at the first step of each row tile, so after step t it holds runs 0 … t % 8 of row
  512·(t / 8) + r: by induction on t, one more run per step, a fresh start wherever t % 8 = 0. At the last step of a
  row tile (t % 8 = 7) all 8 runs are in, which is the whole sum over the 8192 columns, and the result block is that
  plus the bias entry n. Only the grouping of additions is used: nothing is asked of the entries.
-/
import proofs.«106712_j44856638439903_1_alg».proof.Proof.Pieces
import proofs.«106712_j44856638439903_1_alg».proof.Proof.Payload
import proofs.«106712_j44856638439903_1_alg».proof.Proof.Blocks
import proofs.«106712_j44856638439903_1_alg».proof.Proof.BlockSum

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-! ## Entries by natural-number coordinates -/

/-- Entry `(a, k)` of a rows array; zero outside it (never used there). -/
def rowsAt (X : Vec Ideal S8192x8192 .f32) (a k : ℕ) : EReal :=
  if h : a < 8192 ∧ k < 8192 then X (ix2 ⟨a, h.1⟩ ⟨k, h.2⟩) else 0
/-- Entry `(n, k)` of a weights array; zero outside it (never used there). -/
def wtsAt (W : Vec Ideal S2048x8192 .f32) (n k : ℕ) : EReal :=
  if h : n < 2048 ∧ k < 8192 then W (ix2 ⟨n, h.1⟩ ⟨k, h.2⟩) else 0
/-- Column `k`'s product for row `a` against weights row `n`. -/
def term (X : Vec Ideal S8192x8192 .f32) (W : Vec Ideal S2048x8192 .f32) (a n k : ℕ) : EReal := rowsAt X a k * wtsAt W n k

/-- Run `s` of row `a·512 + r` against weights row `n`: the 1024 products of columns `1024·s … 1024·s + 1023`. -/
def run (X : Vec Ideal S8192x8192 .f32) (W : Vec Ideal S2048x8192 .f32) (r : Fin 512) (n : Fin 2048) (a s : ℕ) : EReal :=
  ∑ kk : Fin 1024, term X W (a * 512 + r.val) n.val (s * 1024 + kk.val)

theorem N128 : cfg0.N = 128 := N_0

/-! ## One step's addend -/

/-- What step `t` adds at `(r, n)`: run `t % 8` of row `512·(t / 8) + r`'s products. -/
theorem addend (c : Dev nD) (t : Fin cfg0.N) (r : Fin 512) (n : Fin 2048) :
    ∑ kk : Fin 1024, rowsBlk m c t (ix2 r kk) * wtsBlk m c t (ix2 n kk)
      = run (rowsArr m c) (wtsArr m c) r n (t.val / 8) (t.val % 8) := by
  unfold run
  have hN : t.val < 128 := lt_of_lt_of_eq t.isLt N128
  refine Finset.sum_congr rfl fun kk _ => ?_
  have hr := r.isLt
  have hn := n.isLt
  have hk := kk.isLt
  have hR : t.val / 8 * 512 + r.val < 8192 := by omega
  have hK : t.val % 8 * 1024 + kk.val < 8192 := by omega
  unfold term rowsAt wtsAt
  rw [dif_pos ⟨hR, hK⟩, dif_pos ⟨hn, hK⟩]
  exact congrArg₂ (· * ·) (rowsBlk_apply m c t r kk ⟨_, hR⟩ ⟨_, hK⟩ rfl rfl) (wtsBlk_apply m c t n kk ⟨_, hK⟩ rfl)

/-! ## The total after one step, from the total before it -/

/-- At the first step of a row tile the total is that step's addend alone (zero plus it). -/
theorem total_first_step (c : Dev nD) (t : Fin cfg0.N) (h0 : t.val % 8 = 0) (r : Fin 512) (n : Fin 2048) :
    (outsAt0 m c t.val t.isLt).2 (ix2 r n) = ∑ kk : Fin 1024, rowsBlk m c t (ix2 r kk) * wtsBlk m c t (ix2 n kk) := by
  have h1 : ¬t.val % 8 = 7 := by omega
  rw [outsAt0_A m c t h0 h1]
  dsimp only
  refine (congrFun (Pieces.total_first (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)) (ix2 r n)).trans ?_
  rw [Payload.step_apply, Payload.reset_apply, zero_add]

/-- At every other step it is the total the step before left, plus the step's addend. -/
theorem total_next_step (c : Dev nD) (t : Fin cfg0.N) (h0 : ¬t.val % 8 = 0) (r : Fin 512) (n : Fin 2048) :
    (outsAt0 m c t.val t.isLt).2 (ix2 r n)
      = (outsAt0 m c (t.val - 1) (Nat.lt_of_le_of_lt (Nat.sub_le _ _) t.isLt)).2 (ix2 r n)
        + ∑ kk : Fin 1024, rowsBlk m c t (ix2 r kk) * wtsBlk m c t (ix2 n kk) := by
  by_cases h1 : t.val % 8 = 7
  · rw [outsAt0_C m c t h0 h1]
    dsimp only
    refine (congrFun (Pieces.total_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) (Nat.lt_of_le_of_lt (Nat.sub_le _ _) t.isLt)).2) (ix2 r n)).trans ?_
    rw [Payload.step_apply]
  · rw [outsAt0_B m c t h0 h1]
    dsimp only
    refine (congrFun (Pieces.total_middle (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) (Nat.lt_of_le_of_lt (Nat.sub_le _ _) t.isLt)).2) (ix2 r n)).trans ?_
    rw [Payload.step_apply]

/-! ## The total after step `t`: runs `0 … t % 8` of its rows -/

theorem total_eq (c : Dev nD) : ∀ (t : ℕ) (ht : t < cfg0.N) (r : Fin 512) (n : Fin 2048),
    (outsAt0 m c t ht).2 (ix2 r n)
      = ∑ s ∈ Finset.range (t % 8 + 1), run (rowsArr m c) (wtsArr m c) r n (t / 8) s
  | 0, ht, r, n => by
    rw [total_first_step m c ⟨0, ht⟩ (Nat.zero_mod 8) r n, addend]
    show run (rowsArr m c) (wtsArr m c) r n (0 / 8) (0 % 8) = ∑ s ∈ Finset.range (0 % 8 + 1), run (rowsArr m c) (wtsArr m c) r n (0 / 8) s
    rw [Nat.zero_mod, Nat.zero_add, Finset.sum_range_one]
  | t + 1, ht, r, n => by
    by_cases h0 : (t + 1) % 8 = 0
    · rw [total_first_step m c ⟨t + 1, ht⟩ h0 r n, addend]
      show run (rowsArr m c) (wtsArr m c) r n ((t + 1) / 8) ((t + 1) % 8) = ∑ s ∈ Finset.range ((t + 1) % 8 + 1), run (rowsArr m c) (wtsArr m c) r n ((t + 1) / 8) s
      rw [h0, Nat.zero_add, Finset.sum_range_one]
    · rw [total_next_step m c ⟨t + 1, ht⟩ h0 r n, addend]
      show (outsAt0 m c t (Nat.lt_of_succ_lt ht)).2 (ix2 r n) + run (rowsArr m c) (wtsArr m c) r n ((t + 1) / 8) ((t + 1) % 8)
        = ∑ s ∈ Finset.range ((t + 1) % 8 + 1), run (rowsArr m c) (wtsArr m c) r n ((t + 1) / 8) s
      rw [total_eq c t (Nat.lt_of_succ_lt ht) r n]
      have e1 : (t + 1) / 8 = t / 8 := by omega
      have e2 : (t + 1) % 8 = t % 8 + 1 := by omega
      rw [e1, e2, Finset.sum_range_succ _ (t % 8 + 1)]

/-! ## The result block at a row tile's last step -/

/-- All 8 runs are the whole sum over the 8192 columns, entry by entry of the two arrays. -/
theorem runs_eq_sum (X : Vec Ideal S8192x8192 .f32) (W : Vec Ideal S2048x8192 .f32) (R : Fin 8192) (n : Fin 2048) :
    (∑ s ∈ Finset.range 8, ∑ kk : Fin 1024, term X W R.val n.val (s * 1024 + kk.val))
      = ∑ k : Fin 8192, X (ix2 R k) * W (ix2 n k) := by
  rw [← Cert.BlockSum.sum_8192 (fun k => term X W R.val n.val k)]
  refine Finset.sum_congr rfl fun k _ => ?_
  unfold term rowsAt wtsAt
  rw [dif_pos ⟨R.isLt, k.isLt⟩, dif_pos ⟨n.isLt, k.isLt⟩]

/-- The result block at the last step of row tile `t / 8`: row `r`, column `n` is the whole product sum of row
    `512·(t / 8) + r` against weights row `n`, plus the bias entry `n`. -/
theorem result_eq (c : Dev nD) (t : Fin cfg0.N) (h1 : t.val % 8 = 7) (r : Fin 512) (n : Fin 2048) (R : Fin 8192)
    (hR : R.val = t.val / 8 * 512 + r.val) :
    (outsAt0 m c t.val t.isLt).1 (ix2 r n)
      = (∑ k : Fin 8192, rowsArr m c (ix2 R k) * wtsArr m c (ix2 n k)) + biasArr m c (ix2 (0 : Fin 1) n) := by
  have h0 : ¬t.val % 8 = 0 := by omega
  have htot := total_next_step m c t h0 r n
  rw [outsAt0_C m c t h0 h1]
  dsimp only
  refine (congrFun (Pieces.result_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) (outsAt0 m c (t.val - 1) (Nat.lt_of_le_of_lt (Nat.sub_le _ _) t.isLt)).2) (ix2 r n)).trans ?_
  rw [Payload.result_apply, Payload.step_apply, ← htot, total_eq m c t.val t.isLt r n, h1]
  unfold run
  rw [← hR, runs_eq_sum]
  exact congrArg (fun z => (∑ k : Fin 8192, rowsArr m c (ix2 R k) * wtsArr m c (ix2 n k)) + z) (biasBlk_apply m c t n)

end Cert.KernelIdeal.Accum

end
-- ==== Proof.Spec.lean ====
/-
  What both programs compute, as one function of the three argument arrays.

  The arguments are x : [4096, 2, 8192], w : [2048, 8192] and b : [2048]; the result is [4096, 2, 2048] with
      out (s, q, n) = (∑ k < 8192, x (s, q, k) · w (n, k)) + b (n)
  over the extended reals. One program computes it on the rows flattened: row 2·s + q of the [8192, 8192] array is
  row (s, q) of x (the same row-major position), the bias is carried as a [1, 2048] array, and the [8192, 2048]
  result is read back as [4096, 2, 2048]. This file states both forms and shows that reshaping the flattened form
  gives the other; a reshape moves no value, so nothing is asked of the entries.
-/
import Idealize.ShloMosaic.Lib.ValueIdx
import Idealize.ShloMosaic.Lib.Pipeline.Value

noncomputable section

open scoped BigOperators

namespace Cert.Spec

open Idealize.ShloMosaic Idealize.ShloMosaic.ValueIdx

abbrev X3 : Shape := ⟨3, ![4096, 2, 8192]⟩
abbrev X2 : Shape := ⟨2, ![8192, 8192]⟩
abbrev Wt : Shape := ⟨2, ![2048, 8192]⟩
abbrev B1 : Shape := ⟨1, ![2048]⟩
abbrev B2 : Shape := ⟨2, ![1, 2048]⟩
abbrev O2 : Shape := ⟨2, ![8192, 2048]⟩
abbrev O3 : Shape := ⟨3, ![4096, 2, 2048]⟩

/-- The result on flattened rows: row `R` of `X` against row `n` of `W`, plus the bias row's entry `n`. -/
def flat (X : X2.Idx → EReal) (W : Wt.Idx → EReal) (B : B2.Idx → EReal) : O2.Idx → EReal :=
  fun j => (∑ k : Fin 8192, X (ix2 (j 0) k) * W (ix2 (j 1) k)) + B (ix2 (0 : Fin 1) (j 1))

/-- The result on the arguments as given. -/
def full (x : X3.Idx → EReal) (w : Wt.Idx → EReal) (b : B1.Idx → EReal) : O3.Idx → EReal :=
  fun i => (∑ k : Fin 8192, x (ix3 (i 0) (i 1) k) * w (ix2 (i 2) k)) + b (ix1 (i 2))

/-- The flattened row that holds row `(s, q)`. -/
def row (s : Fin 4096) (q : Fin 2) : Fin 8192 :=
  ⟨2 * s.val + q.val, by have := s.isLt; have := q.isLt; omega⟩

/-- Flattening the two leading axes of `x`: entry `(2·s + q, k)` is entry `(s, q, k)`. -/
theorem rows_apply {α : Type} (x : X3.Idx → α) (h : X3.ShapeCasts X2) (s : Fin 4096) (q : Fin 2) (k : Fin 8192) :
    shapeCast X2 x h (ix2 (row s q) k) = x (ix3 s q k) :=
  shapeCast_apply x h _ _ (by
    rw [Shape.rowMajor_val_three, Shape.rowMajor_val_two]
    show (s.val * 2 + q.val) * 8192 + k.val = (2 * s.val + q.val) * 8192 + k.val
    omega)

/-- The bias as a one-row array: entry `(0, n)` is entry `n`. -/
theorem bias_apply {α : Type} (b : B1.Idx → α) (h : B1.ShapeCasts B2) (n : Fin 2048) :
    shapeCast B2 b h (ix2 (0 : Fin 1) n) = b (ix1 n) :=
  shapeCast_apply b h _ _ (by
    rw [Shape.rowMajor_val_one, Shape.rowMajor_val_two]
    show n.val = 0 * 2048 + n.val
    omega)

/-- Reading the flat result back with two leading axes: entry `(s, q, n)` is entry `(2·s + q, n)`. -/
theorem unflatten_apply {α : Type} (y : O2.Idx → α) (h : O2.ShapeCasts O3) (s : Fin 4096) (q : Fin 2) (n : Fin 2048) :
    shapeCast O3 y h (ix3 s q n) = y (ix2 (row s q) n) :=
  shapeCast_apply y h _ _ (by
    rw [Shape.rowMajor_val_three, Shape.rowMajor_val_two]
    show (2 * s.val + q.val) * 2048 + n.val = (s.val * 2 + q.val) * 2048 + n.val
    omega)

/-- The flat result of the flattened arguments, read back with two leading axes, is the result on the arguments
    as given: term by term the same products, and the same bias entry. -/
theorem unflatten_flat (x : X3.Idx → EReal) (w : Wt.Idx → EReal) (b : B1.Idx → EReal)
    (hx : X3.ShapeCasts X2) (hb : B1.ShapeCasts B2) (ho : O2.ShapeCasts O3) :
    shapeCast O3 (flat (shapeCast X2 x hx) w (shapeCast B2 b hb)) ho = full x w b := by
  funext i
  obtain ⟨s, q, n, rfl⟩ : ∃ (s : Fin 4096) (q : Fin 2) (n : Fin 2048), i = ix3 s q n := ⟨i 0, i 1, i 2, eq_ix3 i⟩
  rw [unflatten_apply _ ho s q n]
  show (∑ k : Fin 8192, shapeCast X2 x hx (ix2 (row s q) k) * w (ix2 n k)) + shapeCast B2 b hb (ix2 (0 : Fin 1) n)
    = (∑ k : Fin 8192, x (ix3 s q k) * w (ix2 n k)) + b (ix1 n)
  rw [bias_apply]
  exact congrArg (· + b (ix1 n)) (Finset.sum_congr rfl fun k _ => by rw [rows_apply])

end Cert.Spec

end
-- ==== Proof.Final.lean ====
/-
  The kernel's result array after the run, and the run itself with its result named.

  The result block is written back exactly at the last step of each row tile (t % 8 = 7), and what is written back
  there is rows 512·(t / 8) … 512·(t / 8) + 511 of the flat result: every entry (R, n) is the whole product sum of
  row R of the rows array against row n of the weights, plus the bias entry n. The 16 written blocks tile the
  [8192, 2048] array — row R lies in row tile R / 512, written at step 8·(R / 512) + 7 — so the array ends holding
  the flat result everywhere. Before the region the program only reshapes (x to [8192, 8192], the bias to [1, 2048]);
  after it, it reads the [8192, 2048] array back as [4096, 2, 2048]: so the program's result is the specification's
  function of its three arguments.
-/
import proofs.«106712_j44856638439903_1_alg».proof.Proof.Accum
import proofs.«106712_j44856638439903_1_alg».proof.Proof.Spec
import Idealize.ShloMosaic.Lib.StableHlo.Run

noncomputable section

open scoped BigOperators

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Blocks Cert.KernelIdeal.Accum

variable (m : (ℓ : Loc nD τ sig) → Buf (Elt Ideal) ℓ) (ρ : Dev nD → PrngReg)

/-- The flat result of the three arrays as the region finds them. -/
abbrev flatOut (c : Dev nD) : Buf (Elt Ideal) ((c : Thread nD τ).loc main_v2) :=
  Cert.Spec.flat (rowsArr m c) (wtsArr m c) (biasArr m c)

/-! ## What a write-back writes -/

theorem flushed_eq (c : Dev nD) (t : Fin cfg0.N) (hf : (cfg0.win 3).flush t = true) :
    (dats m 0 c).flushed 3 t = ((cfg0.win 3).blk t).view.read (Elt Ideal) (flatOut m c) := by
  have h1 : t.val % 8 = 7 := (flush0_3 t).mp hf
  have hN : t.val < 128 := lt_of_lt_of_eq t.isLt N128
  show (cfg0.win 3).cut (grid0.coords t) ((dats m 0 c).after 3 t) = _
  rw [after0_3]
  funext j
  have hj0 : (j 0).val < 512 := (j 0).isLt
  have hj1 : (j 1).val < 2048 := (j 1).isLt
  have hR : t.val / 8 * 512 + (j 0).val < 8192 := by omega
  have he : ((cfg0.win 3).blk t).view.emb j = ix2 (⟨t.val / 8 * 512 + (j 0).val, hR⟩ : Fin 8192) (⟨(j 1).val, hj1⟩ : Fin 2048) := by
    funext a; apply Fin.ext
    match a with
    | ⟨0, _⟩ => show win0_3.index t 0 * 512 + 1 * (j 0).val = t.val / 8 * 512 + (j 0).val; rw [(idx_out t).1]; omega
    | ⟨1, _⟩ => show win0_3.index t 1 * 2048 + 1 * (j 1).val = (j 1).val; rw [(idx_out t).2]; omega
  show (outsAt0 m c t.val t.isLt).1 j = flatOut m c (((cfg0.win 3).blk t).view.emb j)
  rw [he]
  have hj : j = ix2 (⟨(j 0).val, hj0⟩ : Fin 512) (⟨(j 1).val, hj1⟩ : Fin 2048) := by
    funext a; match a with | ⟨0, _⟩ => rfl | ⟨1, _⟩ => rfl
  exact (congrArg (outsAt0 m c t.val t.isLt).1 hj).trans
    (result_eq m c t h1 ⟨(j 0).val, hj0⟩ ⟨(j 1).val, hj1⟩ ⟨t.val / 8 * 512 + (j 0).val, hR⟩ rfl)

/-! ## The written blocks tile the array -/

theorem mem_blk (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v2).slice (win0_3.rect t)).set ↔ _
  rw [View.set_slice_whole, Rect.mem_set_unit]
  exact Iff.rfl

theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have ht : (i 0).val / 512 * 8 + 7 < cfg0.N := by rw [N128]; omega
  obtain ⟨e0, e1⟩ := idx_out ⟨(i 0).val / 512 * 8 + 7, ht⟩
  have e0' : win0_3.index ⟨(i 0).val / 512 * 8 + 7, ht⟩ (0 : Fin 2) = (i 0).val / 512 := by
    rw [e0]; show ((i 0).val / 512 * 8 + 7) / 8 = (i 0).val / 512; omega
  refine ⟨⟨(i 0).val / 512 * 8 + 7, ht⟩, (flush0_3 _).mpr (by show ((i 0).val / 512 * 8 + 7) % 8 = 7; omega), ?_⟩
  rw [mem_blk]
  intro a
  match a with
  | ⟨0, _⟩ =>
    show win0_3.index ⟨(i 0).val / 512 * 8 + 7, ht⟩ (0 : Fin 2) * 512 ≤ (i 0).val ∧ (i 0).val < win0_3.index ⟨(i 0).val / 512 * 8 + 7, ht⟩ (0 : Fin 2) * 512 + 512
    rw [e0']; omega
  | ⟨1, _⟩ =>
    show win0_3.index ⟨(i 0).val / 512 * 8 + 7, ht⟩ (1 : Fin 2) * 2048 ≤ (i 1).val ∧ (i 1).val < win0_3.index ⟨(i 0).val / 512 * 8 + 7, ht⟩ (1 : Fin 2) * 2048 + 2048
    rw [e1]; omega

/-- The result array after the region. -/
theorem final_eq (c : Dev nD) : (dats m 0 c).arrAt 3 cfg0.N = flatOut m c :=
  (dats m 0 c).arrAt_eq_of_cover 3 (flatOut m c) (flushed_eq m c) cover

/-! ## The host operations around the region -/

theorem rowsArr_eq (c : Dev nD) :
    rowsArr m c = shapeCast S8192x8192 (m ((c : Thread nD τ).loc main_arg0)) shapeCasts_S4096x2x8192_S8192x8192 := by
  show StableHlo.after hostOps0 (fun b => m (c, b)) (Proc.devRef .tc main_v0) = _
  after_results
  rfl

theorem wtsArr_eq (c : Dev nD) : wtsArr m c = m ((c : Thread nD τ).loc main_arg1) := V_main_arg1 m c

theorem biasArr_eq (c : Dev nD) :
    biasArr m c = shapeCast S1x2048 (m ((c : Thread nD τ).loc main_arg2)) shapeCasts_S2048_S1x2048 := by
  show StableHlo.after hostOps0 (fun b => m (c, b)) (Proc.devRef .tc main_v1) = _
  after_results
  rfl

/-- The program's result: the region's array read back with two leading axes. -/
theorem tail_eq (c : Dev nD) :
    Pipeline.afterTail₀ cfgs (dats m) 0 (V0 m) [hostOps1] c main_v3
      = shapeCast S4096x2x2048 (flatOut m c) shapeCasts_S8192x2048_S4096x2x2048 := by
  unfold Pipeline.afterTail₀
  show StableHlo.after hostOps1 _ (Proc.devRef .tc main_v3) = _
  after_results
  funext i
  exact congrFun (congrArg (fun y => shapeCast S4096x2x2048 y shapeCasts_S8192x2048_S4096x2x2048)
    ((Pipeline.withArrays_arr spec0 launch0.win.arr_inj c (V0 m c) (fun w => (dats m 0 c).arrAt w cfg0.N) 3).trans (final_eq m c))) i

/-- The program's result is the specification's function of its three arguments. -/
theorem result_eq (c : Dev nD) :
    Pipeline.afterTail₀ cfgs (dats m) 0 (V0 m) [hostOps1] c main_v3
      = Cert.Spec.full (m ((c : Thread nD τ).loc main_arg0)) (m ((c : Thread nD τ).loc main_arg1)) (m ((c : Thread nD τ).loc main_arg2)) := by
  rw [tail_eq]
  show shapeCast S4096x2x2048 (Cert.Spec.flat (rowsArr m c) (wtsArr m c) (biasArr m c)) shapeCasts_S8192x2048_S4096x2x2048 = _
  rw [rowsArr_eq m c, wtsArr_eq m c, biasArr_eq m c]
  exact Cert.Spec.unflatten_flat _ _ _ _ _ _

/-! ## The run -/

/-- Every weakly fair execution terminates with the result array at the specification's function of the arguments
    and the arguments unchanged. -/
theorem run : θ_run defs (onTc (τ := τ) (main (F := Ideal))) ⟨m, fun _ => 0, ρ⟩ fun r => ∀ c : Dev nD,
      r.2.mem ((c.tc : Thread nD τ).loc main_v3)
        = Cert.Spec.full (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.Reference.lean ====
/-
  The reference computes the specification's function.

  Its four host operations are one contraction of x's last axis against w's last axis, the bias broadcast along the
  two leading axes, and their sum: entry (s, q, n) is (∑ k < 8192, x (s, q, k) · w (n, k)) + b (n). Read at an index,
  stage by stage, that is literally the specification; only the spelling of the operand indices differs.
-/
import proofs.«106712_j44856638439903_1_alg».proof.Proof.Gen.ReferenceIdeal.Read
import proofs.«106712_j44856638439903_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

theorem result_eq (x : (⟨S4096x2x8192, .f32⟩ : BufTy).Contents (Elt Ideal)) (w : (⟨S2048x8192, .f32⟩ : BufTy).Contents (Elt Ideal))
    (b : (⟨S2048, .f32⟩ : BufTy).Contents (Elt Ideal)) :
    val_main_v3 (F := Ideal) x w b = Cert.Spec.full x w b := by
  funext i
  have el : ∀ k : Fin 8192, lidx_main_v0 i k = ix3 (i 0) (i 1) k := fun k => funext fun a => Fin.ext (by
    match a with | ⟨0, _⟩ => rfl | ⟨1, _⟩ => rfl | ⟨2, _⟩ => rfl)
  have er : ∀ k : Fin 8192, ridx_main_v0 i k = ix2 (i 2) k := fun k => funext fun a => Fin.ext (by
    match a with | ⟨0, _⟩ => rfl | ⟨1, _⟩ => rfl)
  have eb : idx_main_v1 (idx_main_v2 i) = ix1 (i 2) := funext fun a => Fin.ext (by
    match a with | ⟨0, _⟩ => rfl)
  rw [val_main_v3_apply, val_main_v0_apply, val_main_v2_apply, val_main_v1_apply, eb]
  simp only [el, er]
  rfl

end Cert.ReferenceIdeal.RefValue

end
-- ==== Proof.lean ====
/-
  A row-parallel linear layer: out (s, q, n) = (∑ k < 8192, x (s, q, k) · w (n, k)) + b (n), for x : [4096, 2, 8192],
  w : [2048, 8192], b : [2048].

  The kernel flattens x to 8192 rows and walks a 16 × 8 grid: for each tile of 512 rows it takes the 8192 columns in 8
  runs of 1024, keeping a [512, 2048] running total that starts at zero at the tile's first step and gains one run's
  partial products per step; at the tile's last step it writes the total plus the bias row as the tile's 512 result
  rows. Both operand blocks are narrowed before the product, which over the reals changes nothing. The reference
  contracts all 8192 columns at once and adds the broadcast bias.

  Over the extended reals the two agree entry by entry. The kernel's entry is ((((0 + p₀) + p₁) + … ) + p₇) + b (n),
  with pₛ the sum of run s's 1024 products; the reference's is (p over all 8192 columns) + b (n). Regrouping a sum of
  extended reals into consecutive runs uses only that addition is associative and commutative with 0 neutral, so the
  equality holds for every input, finite or not: the precondition is not used. The reshapes around the kernel move no
  value: row 2·s + q of the flattened array is row (s, q).

  The pieces: Proof/Spec.lean (the function, flat and as given), Proof/BlockSum.lean (the regrouping),
  Proof/Payload.lean (the body's stored values at an entry), Proof/Pieces.lean (what one run of the body leaves),
  Proof/Blocks.lean (which entries a block holds), Proof/Accum.lean (the running total by induction on the step),
  Proof/Final.lean (the result array and the kernel's run), Proof/Reference.lean (the reference is the function).
-/
import proofs.«106712_j44856638439903_1_alg».proof.Defs
import proofs.«106712_j44856638439903_1_alg».proof.Proof.Gen.Kernel
import proofs.«106712_j44856638439903_1_alg».proof.Proof.Gen.Kernel.Frame
import proofs.«106712_j44856638439903_1_alg».proof.Proof.Gen.KernelIdeal
import proofs.«106712_j44856638439903_1_alg».proof.Proof.Gen.KernelIdeal.Frame
import proofs.«106712_j44856638439903_1_alg».proof.Proof.Gen.ReferenceIdeal
import proofs.«106712_j44856638439903_1_alg».proof.Proof.Gen.ReferenceIdeal.Run
import proofs.«106712_j44856638439903_1_alg».proof.Proof.Gen.ReferenceIdeal.Read
import proofs.«106712_j44856638439903_1_alg».proof.Proof.Gen.Pre_finite_inputs
import proofs.«106712_j44856638439903_1_alg».proof.Proof.Final
import proofs.«106712_j44856638439903_1_alg».proof.Proof.Reference
import Idealize.ShloMosaic.Adequacy
import Idealize.ShloMosaic.Init

noncomputable section

namespace Cert.Proof

open Idealize.ShloMosaic Idealize.SL.Sem

/-- The kernel as printed runs to the end and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the result array at the specification's function of the
    arguments: the kernel's by its run read back (Proof/Final.lean), the reference's by its four stages read at an
    index (Proof/Reference.lean). -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.full (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
